-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) (main_arg1 : FVec F S512x256 .f32) (main_arg2 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S512x256 : Shape := ⟨2, ![512, 256]⟩
abbrev S1x1 : Shape := ⟨2, ![1, 1]⟩
abbrev S256 : Shape := ⟨1, ![256]⟩
abbrev S1x256 : Shape := ⟨2, ![1, 256]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S1x1, .f32⟩
  | .hbm, ⟨4, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S1x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S512x256_S512x256_0_0 : ∀ a, (![0, 0] : Fin 2 → Nat) a + S512x256.size a ≤ S512x256.size a
  h_S512x256 : 0 < S512x256.numel
  reduces_S512x256_S256 : S512x256.Reduces [0] S256
  shapeCasts_S256_S1x256 : S256.ShapeCasts S1x256
  broadcasts_S1x256_S512x256 : S1x256.Broadcasts S512x256
  reduces_S512x256_S512 : S512x256.Reduces [1] S512
  shapeCasts_S512_S512x1 : S512.ShapeCasts S512x1
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x256 : Shape := ⟨2, ![512, 256]⟩
abbrev S_ : Shape := ⟨0, ![]⟩
abbrev S1x512x256 : Shape := ⟨3, ![1, 512, 256]⟩
abbrev S512x1x256 : Shape := ⟨3, ![512, 1, 256]⟩
abbrev S512x512x256 : Shape := ⟨3, ![512, 512, 256]⟩
abbrev S512 : Shape := ⟨1, ![512]⟩

abbrev nBuf : Space → Nat
  | .hbm => 40
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S1x512x256, .f32⟩
  | .hbm, ⟨17, _⟩ => ⟨S512x1x256, .f32⟩
  | .hbm, ⟨18, _⟩ => ⟨S512x512x256, .f32⟩
  | .hbm, ⟨19, _⟩ => ⟨S512x512x256, .f32⟩
  | .hbm, ⟨20, _⟩ => ⟨S512x512x256, .f32⟩
  | .hbm, ⟨21, _⟩ => ⟨S512x512x256, .f32⟩
  | .hbm, ⟨22, _⟩ => ⟨S_, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S512x256_S1x512x256_1_2 : S512x256.BroadcastsInDim S1x512x256 (![1, 2] : Fin 2 → Fin S1x512x256.rank)
  bcast_S512x256_S512x1x256_0_2 : S512x256.BroadcastsInDim S512x1x256 (![0, 2] : Fin 2 → Fin S512x1x256.rank)
  bcast_S1x512x256_S512x512x256_0_1_2 : S1x512x256.BroadcastsInDim S512x512x256 (![0, 1, 2] : Fin 3 → Fin S512x512x256.rank)
  bcast_S512x1x256_S512x512x256_0_1_2 : S512x1x256.BroadcastsInDim S512x512x256 (![0, 1, 2] : Fin 3 → Fin S512x512x256.rank)
  reducesTo_S512x512x256_S512x256_d1 : S512x512x256.ReducesTo [1] S512x256
  h_S_ : 0 < S_.numel
  reducesTo_S512x256_S512_d1 : S512x256.ReducesTo [1] S512
  reducesTo_S512_S_d0 : S512.ReducesTo [0] S_

variable [Facts₀]

class Facts : Prop extends Facts₀ where

variable [Facts]
-- ==== Proof.Spec.lean ====
/-
  The mathematics of the certificate, with no program in sight.

  Both programs compute, from three 512 x 256 arrays mu, logvar, h, the number

      (1/512) * sum_i sum_d ( pos(i,d) - neg(i,d) ),

  where, with w(i,d) = 1 / (exp (logvar(i,d)) + eps) the reciprocal of the smoothed variance,

      pos(i,d) = -(1/2) * (mu(i,d) - h(i,d))^2 * w(i,d)
      neg(i,d) = -(1/2) * M(i,d) * w(i,d),      M(i,d) = (1/512) * sum_j (h(j,d) - mu(i,d))^2 .

  One program forms the 512 x 512 x 256 array of squared differences and averages it over j; the other expands the
  square, M(i,d) = E2(d) - 2 * mu(i,d) * E1(d) + mu(i,d)^2 with the column means E1(d) = (1/512) sum_j h(j,d) and
  E2(d) = (1/512) sum_j h(j,d)^2, and never forms the large array.  One sums pos and neg over d separately and
  subtracts the row sums; the other sums the difference.  One divides the total by 512, the other multiplies by the
  dyadic 2^-9.  Over the real numbers these agree (the expansion of a square, linearity of a finite sum).  Over the
  extended reals linearity fails at the infinities, so the statement is made for arrays all of whose entries are real:
  then exp (logvar) + eps is a positive real, every quotient is a quotient by a nonzero real, every intermediate value
  is a real number, and each side is the coercion of the corresponding real expression.

  This file: the values of the seven float literals, the identity over the reals, the two expressions over the
  extended reals as the programs' operations spell them, and their equality on real-valued arrays.
-/
import Idealize.ShloMosaic.PureOps.Ideal
import Idealize.ShloMosaic.PureOps.Ideal.Laws

noncomputable section

namespace Cert.Club

open Idealize.ShloMosaic

/-! ## The float literals as extended reals -/

/-- 1.0 -/
theorem one_val : Ideal.ofBits .f32 0x3F800000#32 = ((1 : ℝ) : EReal) := by
  simp [Ideal.ofBits, Ideal.ieee, -EReal.coe_mul]; norm_num
/-- -0.5 -/
theorem negHalf_val : Ideal.ofBits .f32 0xBF000000#32 = ((-(1/2) : ℝ) : EReal) := by
  simp [Ideal.ofBits, Ideal.ieee, -EReal.coe_mul]; norm_num
/-- 2.0 -/
theorem two_val : Ideal.ofBits .f32 0x40000000#32 = ((2 : ℝ) : EReal) := by
  simp [Ideal.ofBits, Ideal.ieee, -EReal.coe_mul]; norm_num
/-- 512.0, the number of rows -/
theorem rows_val : Ideal.ofBits .f32 0x44000000#32 = ((512 : ℝ) : EReal) := by
  simp [Ideal.ofBits, Ideal.ieee, -EReal.coe_mul]; norm_num
/-- 2^-9 = 1/512, exactly -/
theorem invRows_val : Ideal.ofBits .f32 0x3B000000#32 = ((1/512 : ℝ) : EReal) := by
  simp [Ideal.ofBits, Ideal.ieee, -EReal.coe_mul]; norm_num

/-- The smoothing constant: the float nearest 1e-7, which is 14073749 * 2^-47. Only its sign matters below. -/
def eps : ℝ := (14073749 : ℝ) * (2 : ℝ) ^ (-47 : ℤ)
theorem eps_nonneg : 0 ≤ eps := by unfold eps; positivity
theorem eps_val : Ideal.ofBits .f32 0x33D6BF95#32 = ((eps : ℝ) : EReal) := by
  unfold eps
  simp [Ideal.ofBits, Ideal.ieee, -EReal.coe_mul]

/-! ## Coercion of finite sums and of quotients -/

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A real divided by 512 is its product with 1/512. -/
theorem div_rows (a : ℝ) : Ideal.div (a : EReal) ((512 : ℝ) : EReal) = ((a * (1/512) : ℝ) : EReal) := by
  rw [Ideal.div_coe (by norm_num : (512 : ℝ) ≠ 0), ← EReal.coe_mul]

/-! ## The identity over the reals -/

section Reals

variable (mu lv h : Fin 512 → Fin 256 → ℝ)

/-- The reciprocal of the smoothed variance. -/
def rW (i : Fin 512) (d : Fin 256) : ℝ := 1 * (1 / (Real.exp (lv i d) + eps))

/-- The summand with the square expanded through the column means. -/
def rTermExpanded (i : Fin 512) (d : Fin 256) : ℝ :=
  ((-(1/2)) * (mu i d - h i d)) * (mu i d - h i d) * rW lv i d
    - ((-(1/2)) * ((((∑ j, h j d * h j d) * (1/512)) - (2 * mu i d) * ((∑ j, h j d) * (1/512))) + mu i d * mu i d)) * rW lv i d

/-- The total of the expanded summands, scaled by 2^-9. -/
def rExpanded : ℝ := (∑ i, ∑ d, rTermExpanded mu lv h i d) * (1/512)

/-- The positive part. -/
def rPos (i : Fin 512) (d : Fin 256) : ℝ := ((-(1/2)) * ((mu i d - h i d) * (mu i d - h i d))) * rW lv i d
/-- The negative part, the mean over j of the squared differences taken directly. -/
def rNeg (i : Fin 512) (d : Fin 256) : ℝ :=
  ((-(1/2)) * ((∑ j, (h j d - mu i d) * (h j d - mu i d)) * (1/512))) * rW lv i d
/-- The row sums subtracted, summed over the rows, divided by 512. -/
def rPairwise : ℝ := (∑ i, ((∑ d, rPos mu lv h i d) - (∑ d, rNeg mu lv h i d))) * (1/512)

/-- The sum over j of (h_j - m)^2 is sum h_j^2 - 2 m sum h_j + 512 m^2. -/
theorem sum_sq_sub (d : Fin 256) (m : ℝ) :
    (∑ j, (h j d - m) * (h j d - m)) = (∑ j, h j d * h j d) - 2 * m * (∑ j, h j d) + 512 * (m * m) := by
  have e : ∀ j, (h j d - m) * (h j d - m) = h j d * h j d - 2 * m * h j d + m * m := fun j => by ring
  simp only [e]
  rw [Finset.sum_add_distrib, Finset.sum_sub_distrib, ← Finset.mul_sum, Finset.sum_const, Finset.card_univ,
    Fintype.card_fin]
  simp only [nsmul_eq_mul]
  push_cast
  ring

/-- The two arrangements agree over the reals. -/
theorem rExpanded_eq_rPairwise : rExpanded mu lv h = rPairwise mu lv h := by
  unfold rExpanded rPairwise
  congr 1
  refine Finset.sum_congr rfl fun i _ => ?_
  rw [← Finset.sum_sub_distrib]
  refine Finset.sum_congr rfl fun d _ => ?_
  unfold rTermExpanded rPos rNeg
  rw [sum_sq_sub h d (mu i d)]
  ring

end Reals

/-! ## The two expressions over the extended reals -/

section Extended

variable (A L H : Fin 512 → Fin 256 → EReal)

/-- The reciprocal of the smoothed variance, as both programs compute it: 1.0 divided by exp (logvar) + eps. -/
def eW (i : Fin 512) (d : Fin 256) : EReal :=
  Ideal.div (Ideal.ofBits .f32 0x3F800000#32) (Ideal.exp (L i d) + Ideal.ofBits .f32 0x33D6BF95#32)

/-- The summand with the square expanded, operation by operation. -/
def eTermExpanded (i : Fin 512) (d : Fin 256) : EReal :=
  ((Ideal.ofBits .f32 0xBF000000#32 * (A i d - H i d)) * (A i d - H i d)) * eW L i d
    - ((Ideal.ofBits .f32 0xBF000000#32
        * (((Ideal.div (∑ j, H j d * H j d) (Ideal.ofBits .f32 0x44000000#32))
              - (Ideal.ofBits .f32 0x40000000#32 * A i d) * (Ideal.div (∑ j, H j d) (Ideal.ofBits .f32 0x44000000#32)))
            + A i d * A i d)) * eW L i d)

/-- The total of the expanded summands times the literal 2^-9. -/
def eExpanded : EReal := (∑ i, ∑ d, eTermExpanded A L H i d) * Ideal.ofBits .f32 0x3B000000#32

/-- The positive part. -/
def ePos (i : Fin 512) (d : Fin 256) : EReal :=
  (Ideal.ofBits .f32 0xBF000000#32 * ((A i d - H i d) * (A i d - H i d))) * eW L i d
/-- The negative part: the sum over j from the literal zero, divided by 512.0. -/
def eNeg (i : Fin 512) (d : Fin 256) : EReal :=
  (Ideal.ofBits .f32 0xBF000000#32
      * Ideal.div (Ideal.ofBits .f32 0x00000000#32 + ∑ j, (H j d - A i d) * (H j d - A i d)) (Ideal.ofBits .f32 0x44000000#32))
    * eW L i d
/-- The row sums (each from the literal zero) subtracted, summed over the rows from zero, divided by 512.0. -/
def ePairwise : EReal :=
  Ideal.div (Ideal.ofBits .f32 0x00000000#32
      + ∑ i, ((Ideal.ofBits .f32 0x00000000#32 + ∑ d, ePos A L H i d) - (Ideal.ofBits .f32 0x00000000#32 + ∑ d, eNeg A L H i d)))
    (Ideal.ofBits .f32 0x44000000#32)

end Extended

/-! ## On real-valued arrays each expression is the coercion of its real counterpart -/

section Coercions

variable (mu lv h : Fin 512 → Fin 256 → ℝ)

theorem eW_coe (i : Fin 512) (d : Fin 256) :
    eW (fun i d => ((lv i d : ℝ) : EReal)) i d = ((rW lv i d : ℝ) : EReal) := by
  unfold eW rW
  rw [one_val, eps_val, Ideal.exp_coe, ← EReal.coe_add,
    Ideal.div_coe (ne_of_gt (add_pos_of_pos_of_nonneg (Real.exp_pos _) eps_nonneg)), ← EReal.coe_mul]

theorem eTermExpanded_coe (i : Fin 512) (d : Fin 256) :
    eTermExpanded (fun i d => ((mu i d : ℝ) : EReal)) (fun i d => ((lv i d : ℝ) : EReal)) (fun i d => ((h i d : ℝ) : EReal)) i d
      = ((rTermExpanded mu lv h i d : ℝ) : EReal) := by
  unfold eTermExpanded rTermExpanded
  rw [eW_coe, negHalf_val, two_val, rows_val]
  simp only [← EReal.coe_mul, ← coe_sum, div_rows, ← EReal.coe_sub, ← EReal.coe_add]

theorem eExpanded_coe :
    eExpanded (fun i d => ((mu i d : ℝ) : EReal)) (fun i d => ((lv i d : ℝ) : EReal)) (fun i d => ((h i d : ℝ) : EReal))
      = ((rExpanded mu lv h : ℝ) : EReal) := by
  unfold eExpanded rExpanded
  simp only [eTermExpanded_coe, invRows_val, ← coe_sum, ← EReal.coe_mul]

theorem ePos_coe (i : Fin 512) (d : Fin 256) :
    ePos (fun i d => ((mu i d : ℝ) : EReal)) (fun i d => ((lv i d : ℝ) : EReal)) (fun i d => ((h i d : ℝ) : EReal)) i d
      = ((rPos mu lv h i d : ℝ) : EReal) := by
  unfold ePos rPos
  rw [eW_coe, negHalf_val]
  simp only [← EReal.coe_mul, ← EReal.coe_sub]

theorem eNeg_coe (i : Fin 512) (d : Fin 256) :
    eNeg (fun i d => ((mu i d : ℝ) : EReal)) (fun i d => ((lv i d : ℝ) : EReal)) (fun i d => ((h i d : ℝ) : EReal)) i d
      = ((rNeg mu lv h i d : ℝ) : EReal) := by
  unfold eNeg rNeg
  rw [eW_coe, negHalf_val, rows_val, Ideal.ofBits_zero_f32, zero_add]
  simp only [← EReal.coe_sub, ← EReal.coe_mul, ← coe_sum, div_rows]

theorem ePairwise_coe :
    ePairwise (fun i d => ((mu i d : ℝ) : EReal)) (fun i d => ((lv i d : ℝ) : EReal)) (fun i d => ((h i d : ℝ) : EReal))
      = ((rPairwise mu lv h : ℝ) : EReal) := by
  unfold ePairwise rPairwise
  rw [rows_val, Ideal.ofBits_zero_f32]
  simp only [zero_add, ePos_coe, eNeg_coe, ← coe_sum, ← EReal.coe_sub, div_rows]

end Coercions

/-! ## The equality, for arrays with real entries -/

/-- When every entry of the three arrays is a real number, the expanded and the pairwise expression are equal. -/
theorem eExpanded_eq_ePairwise (A L H : Fin 512 → Fin 256 → EReal)
    (hA : ∀ i d, ∃ r : ℝ, A i d = (r : EReal)) (hL : ∀ i d, ∃ r : ℝ, L i d = (r : EReal))
    (hH : ∀ i d, ∃ r : ℝ, H i d = (r : EReal)) :
    eExpanded A L H = ePairwise A L H := by
  choose mu hmu using hA
  choose lv hlv using hL
  choose h hh using hH
  obtain rfl : A = fun i d => ((mu i d : ℝ) : EReal) := funext fun i => funext fun d => hmu i d
  obtain rfl : L = fun i d => ((lv i d : ℝ) : EReal) := funext fun i => funext fun d => hlv i d
  obtain rfl : H = fun i d => ((h i d : ℝ) : EReal) := funext fun i => funext fun d => hh i d
  rw [eExpanded_coe, ePairwise_coe, rExpanded_eq_rPairwise]

end Cert.Club

end
-- ==== Proof.Finite.lean ====
/-
  What the precondition says at the extended reals.

  The precondition is the conjunction, over the three argument arrays, of "every entry x has |x| < +inf".  At the
  extended reals |x| is max x (-x) and the comparison is the order's, so an entry that passes is neither -inf nor +inf:
  it is a real number.  The conjunction is an and of three one-bit words, and each "every entry" is a reduction by and
  from the bit 1 over both axes.
-/
import proofs.«124616_j27479200759809_1_alg».proof.Pre_finite_inputs
import proofs.«124616_j27479200759809_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Club.Finite

open Idealize.ShloMosaic Idealize.ShloMosaic.ValueIdx Cert.Pre_finite_inputs

instance : Subsingleton S_.Idx := ⟨fun a b => funext fun d => d.elim0⟩

/-- The pattern 0x7F800000 denotes +inf. -/
theorem inf_val : Ideal.ofBits .f32 0x7F800000#32 = (⊤ : EReal) := by
  simp [Ideal.ofBits, Ideal.ieee]

/-- An extended real whose absolute value compares strictly below +inf is a real number. -/
theorem real_of_abs_lt_inf (x : EReal)
    (h : Ideal.cmp .olt (max x (-x)) (Ideal.ofBits .f32 0x7F800000#32) = 1#1) : ∃ r : ℝ, x = (r : EReal) := by
  rw [inf_val] at h
  induction x using EReal.rec with
  | bot => simp [Ideal.cmp] at h
  | top => simp [Ideal.cmp] at h
  | coe r => exact ⟨r, rfl⟩

/-- One array's part of the precondition: if the reduction by and of the entrywise test is the bit 1, every entry of
    the array is a real number. -/
theorem real_of_all (x : FVec Ideal S512x256 .f32)
    (h : (fun x v => Host.reduce IntOp.andi x v Facts.reducesTo_S512x256_S_d0_1 Facts.h_S_)
        (cmpf .olt (Host.absf x) (broadcastInDim S512x256 ![] Facts.bcast_S_S512x256 (constant (F := Ideal) S_ .f32 0x7F800000#32)))
        (constantI S_ 1 1#1) ix0 = 1#1)
    (i : S512x256.Idx) : ∃ r : ℝ, x i = (r : EReal) :=
  real_of_abs_lt_inf (x i) (Host.reduce_andi_all _ _ Facts.reducesTo_S512x256_S_d0_1 Facts.h_S_ ix0 h i)

/-- The precondition's function at the three arrays is all ones only if every entry of each array is a real number. -/
theorem reals_of_pre (x0 x1 x2 : FVec Ideal S512x256 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨real_of_all x0 h0', real_of_all x1 h1, real_of_all x2 h2⟩

end Cert.Club.Finite

end
-- ==== Proof.LibRank1.lean ====
/-
  Rank-1 index sets and columns.

  A rank-1 index set is its one coordinate range, so a sum over it is a sum over that coordinate; a vector of length
  a viewed as an a x 1 column has, at (i, 0), the vector's entry i (the two have the same row-major position i);
  and a 1 x 1 array viewed as a scalar has, at the scalar shape's one index, the array's one entry.
-/
import Idealize.ShloMosaic.Lib.ValueIdx
import Idealize.ShloMosaic.Lib.Pipeline.Value

noncomputable section

namespace Cert.LibRank1

open Idealize.ShloMosaic Idealize.ShloMosaic.ValueIdx

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to a scalar reads, at the scalar's one index, the array's one entry. -/
theorem shapeCast_11_scalar_apply {α : Type} (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) :=
  shapeCast_apply x h _ _ (by
    have h0 := ((⟨0, ![]⟩ : Shape).rowMajor j).isLt
    have h1 : (⟨0, ![]⟩ : Shape).numel = 1 := by decide
    rw [Shape.rowMajor_val_two]
    show 0 * 1 + 0 = _
    omega)

end Cert.LibRank1

end
-- ==== Proof.KernelValue.lean ====
/-
  The kernel's result as the expanded expression.

  The kernel runs once, on the three whole arrays, and stores one number: with the column means of h and of h^2 taken
  by a sum over the rows and a quotient by 512, broadcast back over the rows, it forms the summand with the square
  expanded at every (i, d), sums it over d (keeping a column), then over i, and scales the total by 2^-9.  Read at its
  one index this is the expression `eExpanded` of the three arrays read at (i, d).  The one block the kernel writes
  back is the whole 1 x 1 result array, and the program's last line views that array as a scalar.
-/
import proofs.«124616_j27479200759809_1_alg».proof.Proof.Gen.KernelIdeal.Frame
import proofs.«124616_j27479200759809_1_alg».proof.Proof.Spec
import proofs.«124616_j27479200759809_1_alg».proof.Proof.LibRank1
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.Club.Ker

open Idealize.ShloMosaic Idealize.ShloMosaic.ValueIdx Idealize.ShloMosaic.TcCoe Idealize.SL.Sem
open Cert.KernelIdeal Cert.KernelIdeal.Gen Cert.LibRank1
open Idealize.ShloMosaic.Pipeline (Dat)

/-! ## Sums that keep their axis, read at an index -/

/-- The sums of the columns of a 512 x 256 array, kept as a 1 x 256 row, divided entrywise by one number and broadcast
    back over the 512 rows: at (i, d) the quotient of column d's sum. -/
theorem colQuot_at (y : FVec Ideal S512x256 .f32) (q : Ideal .f32)
    (hr : S512x256.Reduces [0] S256) (hφ : FKind.Formats .f32)
    (hacc : (0x00000000#32 : BitVec 32) = FKind.add.neutral .f32 hφ)
    (hc : S256.ShapeCasts S1x256) (hb : S1x256.Broadcasts S512x256)
    (i : Fin 512) (d : Fin 256) :
    broadcastTo S512x256 (divf (shapeCast S1x256 (multiReduction .add [0] S256 y 0x00000000#32 hr hφ hacc) hc)
        (broadcast S1x256 q)) hb (ix2 i d)
      = Ideal.div (∑ j : Fin 512, y (ix2 j d)) q := by
  refine (broadcastTo_1b_ab_apply _ hb i d).trans ?_
  show Ideal.div (shapeCast S1x256 _ hc (ix2 (0 : Fin 1) d)) q = _
  refine congrArg (Ideal.div · q) ?_
  refine (shapeCast_a_1a_apply _ hc 0 d).trans ?_
  refine (Ideal.multiReduction_add_single y 0x00000000#32 hr hφ hacc (ix1 d)).trans ?_
  refine Finset.sum_congr rfl fun j _ => congrArg y ?_
  funext a; match a with | ⟨0, _⟩ => rfl | ⟨1, _⟩ => rfl

/-- The row sums of a 512 x 256 array kept as a column, then the sum of that column kept as a 1 x 1 array: at its
    one index the sum over all rows and columns. -/
theorem total_at (y : FVec Ideal S512x256 .f32) (hφ : FKind.Formats .f32)
    (hacc : (0x00000000#32 : BitVec 32) = FKind.add.neutral .f32 hφ)
    (hr1 : S512x256.Reduces [1] S512) (hc1 : S512.ShapeCasts S512x1) (hr2 : S512x1.Reduces [0] S1)
    (hc2 : S1.ShapeCasts S1x1) (u v : Fin 1) :
    shapeCast S1x1 (multiReduction .add [0] S1
        (shapeCast S512x1 (multiReduction .add [1] S512 y 0x00000000#32 hr1 hφ hacc) hc1)
        0x00000000#32 hr2 hφ hacc) hc2 (ix2 u v)
      = ∑ i : Fin 512, ∑ d : Fin 256, y (ix2 i d) := by
  refine (shapeCast_a_1a_apply _ hc2 u v).trans ?_
  refine (Ideal.multiReduction_add_single _ 0x00000000#32 hr2 hφ hacc (ix1 v)).trans ?_
  refine Finset.sum_congr rfl fun i _ => ?_
  have e : hr2.lift (ix1 v) i = ix2 i v := by
    funext a; match a with | ⟨0, _⟩ => rfl | ⟨1, _⟩ => rfl
  rw [e]
  refine (shapeCast_a_a1_apply _ hc1 i v).trans ?_
  refine (Ideal.multiReduction_add_single y 0x00000000#32 hr1 hφ hacc (ix1 i)).trans ?_
  refine Finset.sum_congr rfl fun d _ => congrArg y ?_
  funext a; match a with | ⟨0, _⟩ => rfl | ⟨1, _⟩ => rfl

/-! ## The stored value -/

/-- The number the kernel stores, as a function of the three blocks it loads. -/
theorem stored_eq (x0 x1 x2 : Vec Ideal S512x256 .f32) :
    k0_pay1 (F := Ideal) x0 x1 x2
      = fun _ => eExpanded (fun i d => x0 (ix2 i d)) (fun i d => x1 (ix2 i d)) (fun i d => x2 (ix2 i d)) := by
  funext j
  obtain ⟨u, v, rfl⟩ : ∃ (u v : Fin 1), j = ix2 u v := ⟨j 0, j 1, eq_ix2 j⟩
  unfold k0_pay1
  dsimp only
  show (shapeCast S1x1 _ shapeCasts_S1_S1x1 (ix2 u v)) * Ideal.ofBits .f32 0x3B000000#32 = _
  refine (congrArg (· * Ideal.ofBits .f32 0x3B000000#32)
    (total_at _ _ _ reduces_S512x256_S512 shapeCasts_S512_S512x1 reduces_S512x1_S1 shapeCasts_S1_S1x1 u v)).trans ?_
  unfold eExpanded
  refine congrArg (· * Ideal.ofBits .f32 0x3B000000#32)
    (Finset.sum_congr rfl fun i _ => Finset.sum_congr rfl fun d _ => ?_)
  unfold eTermExpanded
  refine congrArg₂ (· - ·) rfl (congrArg₂ (· * ·) (congrArg₂ (· * ·) rfl
    (congrArg₂ (· + ·) (congrArg₂ (· - ·) ?_ (congrArg₂ (· * ·) rfl ?_)) rfl)) rfl)
  · exact colQuot_at (mulf x2 x2) _ reduces_S512x256_S256 _ _ shapeCasts_S256_S1x256 broadcasts_S1x256_S512x256 i d
  · exact colQuot_at x2 _ reduces_S512x256_S256 _ _ shapeCasts_S256_S1x256 broadcasts_S1x256_S512x256 i d

/-! ## The run, read -/

variable (m : (ℓ : Loc nD τ sig) → Buf (Elt Ideal) ℓ) (ρ : Dev nD → PrngReg)

/-- The three argument arrays on a core, read at (i, d). -/
abbrev argMu (c : Dev nD) : Fin 512 → Fin 256 → EReal := fun i d => m ((c : Thread nD τ).loc main_arg0) (ix2 i d)
abbrev argLogvar (c : Dev nD) : Fin 512 → Fin 256 → EReal := fun i d => m ((c : Thread nD τ).loc main_arg1) (ix2 i d)
abbrev argH (c : Dev nD) : Fin 512 → Fin 256 → EReal := fun i d => m ((c : Thread nD τ).loc main_arg2) (ix2 i d)

/-- The number the program returns on a core: the expanded expression of its three argument arrays. -/
abbrev value (c : Dev nD) : EReal := eExpanded (argMu m c) (argLogvar m c) (argH m c)

theorem zeroOffsets : (![0, 0] : Fin 2 → Nat) = fun _ => 0 := funext fun a => by fin_cases a <;> rfl

/-- At the grid's one point every window's block index is (0, 0). -/
theorem origin : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Each input block is its whole array: entry (i, d) of the block is entry (i, d) of the array. -/
theorem blockMu_at (c : Dev nD) (t : Fin cfg0.N) (i : Fin 512) (d : Fin 256) :
    iblk m c 0 t (ix2 i d) = m ((c : Thread nD τ).loc main_arg0) (ix2 i d) := by
  show V m c main_arg0 (((cfg0.win 0).blk t).view.emb (ix2 i d)) = _
  rw [V_main_arg0]
  refine congrArg _ ?_
  obtain ⟨e0, e1, -⟩ := origin t
  funext a; apply Fin.ext
  match a with
  | ⟨0, _⟩ => show win0_0.index t (0 : Fin 2) * 512 + 1 * i.val = i.val; omega
  | ⟨1, _⟩ => show win0_0.index t (1 : Fin 2) * 256 + 1 * d.val = d.val; omega
theorem blockLogvar_at (c : Dev nD) (t : Fin cfg0.N) (i : Fin 512) (d : Fin 256) :
    iblk m c 1 t (ix2 i d) = m ((c : Thread nD τ).loc main_arg1) (ix2 i d) := by
  show V m c main_arg1 (((cfg0.win 1).blk t).view.emb (ix2 i d)) = _
  rw [V_main_arg1]
  refine congrArg _ ?_
  obtain ⟨-, -, e0, e1, -⟩ := origin t
  funext a; apply Fin.ext
  match a with
  | ⟨0, _⟩ => show win0_1.index t (0 : Fin 2) * 512 + 1 * i.val = i.val; omega
  | ⟨1, _⟩ => show win0_1.index t (1 : Fin 2) * 256 + 1 * d.val = d.val; omega
theorem blockH_at (c : Dev nD) (t : Fin cfg0.N) (i : Fin 512) (d : Fin 256) :
    iblk m c 2 t (ix2 i d) = m ((c : Thread nD τ).loc main_arg2) (ix2 i d) := by
  show V m c main_arg2 (((cfg0.win 2).blk t).view.emb (ix2 i d)) = _
  rw [V_main_arg2]
  refine congrArg _ ?_
  obtain ⟨-, -, -, -, e0, e1, -⟩ := origin t
  funext a; apply Fin.ext
  match a with
  | ⟨0, _⟩ => show win0_2.index t (0 : Fin 2) * 512 + 1 * i.val = i.val; omega
  | ⟨1, _⟩ => show win0_2.index t (1 : Fin 2) * 256 + 1 * d.val = d.val; omega

/-- What the one grid point writes back is the block of the constant 1 x 1 array holding `value`. -/
theorem flushed_eq (c : Dev nD) (t : Fin cfg0.N) :
    (dats m 0 c).flushed 3 t = ((cfg0.win 3).blk t).view.read (Elt Ideal) (fun _ => value m c) := by
  show (cfg0.win 3).cut (grid0.coords t) ((dats m 0 c).after 3 t) = _
  rw [after0_3]
  unfold out0_3
  rw [View.canon_unit_zero zeroOffsets]
  simp only [View.ld_unit_zero (S := S512x256) zeroOffsets]
  rw [stored_eq]
  funext j
  show eExpanded (fun i d => iblk m c 0 t (ix2 i d)) (fun i d => iblk m c 1 t (ix2 i d))
      (fun i d => iblk m c 2 t (ix2 i d)) = value m c
  simp only [blockMu_at, blockLogvar_at, blockH_at]

/-- An index of the result array is in the point's block iff each coordinate is in the block's range. -/
theorem mem_block (t : Fin cfg0.N) (i : S1x1.Idx) :
    i ∈ ((cfg0.win 3).blk t).view.set
      ↔ ∀ a : Fin 2, win0_3.index t a * S1x1.size a ≤ (i a).val ∧ (i a).val < win0_3.index t a * S1x1.size a + S1x1.size a := by
  show i ∈ ((View.whole main_v0).slice (win0_3.rect t)).set ↔ _
  rw [View.set_slice_whole, Rect.mem_set_unit]
  exact Iff.rfl

/-- The result array after the run holds `value` at its one index. -/
theorem final (c : Dev nD) : (dats m 0 c).arrAt 3 cfg0.N = fun _ => value m c :=
  (dats m 0 c).arrAt_eq_of_cover 3 (fun _ => value m c) (fun t _ => flushed_eq m c t) (fun i => ⟨t0_0, flush0_3 t0_0, by
    rw [mem_block]
    obtain ⟨-, -, -, -, -, -, e0, e1⟩ := origin t0_0
    intro a
    match a with
    | ⟨0, _⟩ =>
      show win0_3.index t0_0 (0 : Fin 2) * 1 ≤ (i 0).val ∧ (i 0).val < win0_3.index t0_0 (0 : Fin 2) * 1 + 1
      have h0 : (i 0).val < 1 := (i 0).isLt
      omega
    | ⟨1, _⟩ =>
      show win0_3.index t0_0 (1 : Fin 2) * 1 ≤ (i 1).val ∧ (i 1).val < win0_3.index t0_0 (1 : Fin 2) * 1 + 1
      have h1 : (i 1).val < 1 := (i 1).isLt
      omega⟩)

/-- The program's last line views the 1 x 1 result array as a scalar: the returned scalar is `value`. -/
theorem result_eq (c : Dev nD) :
    Pipeline.afterTail₀ cfgs (dats m) 0 (V0 m) [hostOps1] c main_v1 = fun _ => value m c := by
  unfold Pipeline.afterTail₀
  show StableHlo.after hostOps1 _ (Proc.devRef .tc main_v1) = _
  after_results
  funext j
  show shapeCast S_ (Pipeline.withArrays (cfgs 0).spec c (V0 m c) (fun w => (dats m 0 c).arrAt w (cfgs 0).N)
      (Proc.devRef .tc main_v0)) shapeCasts_S1x1_S_ j = value m c
  refine (shapeCast_11_scalar_apply _ shapeCasts_S1x1_S_ j).trans ?_
  exact congrFun ((Pipeline.withArrays_arr spec0 launch0.win.arr_inj c (V0 m c)
    (fun w => (dats m 0 c).arrAt w (cfgs 0).N) 3).trans (final m c)) _

/-- The scalar result is no array of the pipeline, so the run's post speaks of it through the program's last line. -/
theorem result_mem : main_v1 ∈ Pipeline.restRefs sig (cfgs 0).spec :=
  Pipeline.mem_restRefs_of main_v1 rfl (by decide)

/-- Every weakly fair execution of the idealized kernel program ends with the scalar result at `value` and the three
    argument arrays as they were. -/
theorem run : θ_run defs (onTc (τ := τ) (main (F := Ideal))) ⟨m, fun _ => 0, ρ⟩ fun r => ∀ c : Dev nD,
      r.2.mem ((c.tc : Thread nD τ).loc main_v1) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v1 result_mem).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Club.Ker

end
-- ==== Proof.RefValue.lean ====
/-
  The reference's result as the pairwise expression.

  The reference program is a straight line of array operations; read at an index, stage by stage, its last stage at the
  scalar shape's one index is the expression `ePairwise` of the three argument arrays read at (i, d): the reciprocal
  variance from exp, the literal eps and a quotient; the 512 x 512 x 256 array of (h(j,d) - mu(i,d))^2 from two
  broadcasts along new axes; its sum over j from the literal zero; the row sums over d; their difference; the sum over
  the rows; the final quotient by 512.
-/
import proofs.«124616_j27479200759809_1_alg».proof.Proof.Gen.ReferenceIdeal.Read
import proofs.«124616_j27479200759809_1_alg».proof.Proof.Spec
import proofs.«124616_j27479200759809_1_alg».proof.Proof.LibRank1
import Idealize.ShloMosaic.Lib.ValueIdx

noncomputable section

namespace Cert.Club.Ref

open Idealize.ShloMosaic Idealize.ShloMosaic.ValueIdx Cert.ReferenceIdeal Cert.ReferenceIdeal.Read Cert.LibRank1

variable (x0 x1 x2 : (⟨S512x256, .f32⟩ : BufTy).Contents (Elt Ideal))

/-! ## The composed index maps -/

theorem rowIdx_pos (i : Fin 512) (k : Fin 256) : idx_main_v22 (ix1 i) k = ix2 i k := by
  funext a; match a with | ⟨0, _⟩ => rfl | ⟨1, _⟩ => rfl
theorem rowIdx_neg (i : Fin 512) (k : Fin 256) : idx_main_v23 (ix1 i) k = ix2 i k := by
  funext a; match a with | ⟨0, _⟩ => rfl | ⟨1, _⟩ => rfl
theorem pairIdx (i : Fin 512) (d : Fin 256) (j : Fin 512) : idx_main_v16 (ix2 i d) j = ix3 i j d := by
  funext a; match a with | ⟨0, _⟩ => rfl | ⟨1, _⟩ => rfl | ⟨2, _⟩ => rfl
theorem sampleIdx (i j : Fin 512) (d : Fin 256) : idx_main_v10 (idx_main_v12 (ix3 i j d)) = ix2 j d := by
  funext a; match a with | ⟨0, _⟩ => rfl | ⟨1, _⟩ => rfl
theorem meanIdx (i j : Fin 512) (d : Fin 256) : idx_main_v11 (idx_main_v13 (ix3 i j d)) = ix2 i d := by
  funext a; match a with | ⟨0, _⟩ => rfl | ⟨1, _⟩ => rfl

/-! ## The stages at an index -/

/-- The reciprocal of the smoothed variance at (i, d). -/
theorem w_at (i : Fin 512) (d : Fin 256) :
    val_main_v4 (F := Ideal) x1 (ix2 i d) = eW (fun i d => x1 (ix2 i d)) i d := by
  rw [val_main_v4_apply, val_main_v3_apply, val_main_cst_0_apply, val_main_v2_apply, val_main_v0_apply,
    val_main_v1_apply, val_main_cst_apply]
  rfl

/-- The positive part at (i, d). -/
theorem pos_at (i : Fin 512) (d : Fin 256) :
    val_main_v9 (F := Ideal) x0 x1 x2 (ix2 i d)
      = ePos (fun i d => x0 (ix2 i d)) (fun i d => x1 (ix2 i d)) (fun i d => x2 (ix2 i d)) i d := by
  rw [val_main_v9_apply, w_at, val_main_v8_apply, val_main_v7_apply, val_main_cst_1_apply, val_main_v6_apply,
    val_main_v5_apply]
  rfl

/-- The squared difference at (i, j, d): (h(j,d) - mu(i,d))^2. -/
theorem sq_at (i j : Fin 512) (d : Fin 256) :
    val_main_v15 (F := Ideal) x0 x2 (ix3 i j d) = (x2 (ix2 j d) - x0 (ix2 i d)) * (x2 (ix2 j d) - x0 (ix2 i d)) := by
  rw [val_main_v15_apply, val_main_v14_apply, val_main_v12_apply, val_main_v10_apply, val_main_v13_apply,
    val_main_v11_apply, sampleIdx, meanIdx]
  rfl

/-- The negative part at (i, d). -/
theorem neg_at (i : Fin 512) (d : Fin 256) :
    val_main_v21 (F := Ideal) x0 x1 x2 (ix2 i d)
      = eNeg (fun i d => x0 (ix2 i d)) (fun i d => x1 (ix2 i d)) (fun i d => x2 (ix2 i d)) i d := by
  rw [val_main_v21_apply, w_at, val_main_v20_apply, val_main_v19_apply, val_main_cst_4_apply, val_main_v18_apply,
    val_main_v17_apply, val_main_cst_3_apply, val_main_v16_apply, val_main_cst_2_apply]
  simp only [pairIdx, sq_at]
  rfl

/-- The reference's last stage is the pairwise expression, at the scalar shape's one index. -/
theorem result_eq :
    val_main_v26 (F := Ideal) x0 x1 x2
      = fun _ => ePairwise (fun i d => x0 (ix2 i d)) (fun i d => x1 (ix2 i d)) (fun i d => x2 (ix2 i d)) := by
  funext i0
  rw [val_main_v26_apply, val_main_cst_8_apply, val_main_v25_apply, val_main_cst_7_apply, sum_idx1]
  simp only [val_main_v24_apply, val_main_v22_apply, val_main_v23_apply, val_main_cst_5_apply, val_main_cst_6_apply,
    rowIdx_pos, rowIdx_neg, pos_at, neg_at]
  rfl

end Cert.Club.Ref

end
-- ==== Proof.lean ====
/-
  A loss computed two ways.

  From three 512 x 256 arrays mu, logvar, h both programs return the scalar

      (1/512) * sum_i sum_d ( pos(i,d) - neg(i,d) ),      w = 1 / (exp logvar + eps),
      pos = -(1/2) (mu - h)^2 w,      neg = -(1/2) M w,      M(i,d) = (1/512) sum_j (h(j,d) - mu(i,d))^2 .

  The reference forms the 512 x 512 x 256 array of squared differences and averages it over j.  The kernel expands the
  square, M(i,d) = E2(d) - 2 mu(i,d) E1(d) + mu(i,d)^2 with the column means E1, E2 of h and of h^2, works on the whole
  arrays in one grid point, and scales the total by 2^-9 where the reference divides by 512.

  Under the precondition every entry of the three arrays is a real number (Proof/Finite.lean), so every intermediate
  value is real: the quotients are by exp logvar + eps > 0 and by 512.  On real entries the kernel's expression and the
  reference's are coercions of two real expressions that agree by the expansion of a square and the linearity of finite
  sums (Proof/Spec.lean).  Proof/KernelValue.lean reads the kernel's stored number and the scalar the program returns
  off its run; Proof/RefValue.lean reads the reference's last stage index by index.  No operation of the kernel is
  rewritten by the idealization, so that claim is trivial; the three runs terminate with their arguments unchanged.
-/
import proofs.«124616_j27479200759809_1_alg».proof.Defs
import proofs.«124616_j27479200759809_1_alg».proof.Proof.Gen.Kernel
import proofs.«124616_j27479200759809_1_alg».proof.Proof.Gen.Kernel.Skeleton
import proofs.«124616_j27479200759809_1_alg».proof.Proof.Gen.Kernel.Launch
import proofs.«124616_j27479200759809_1_alg».proof.Proof.Gen.Kernel.Points
import proofs.«124616_j27479200759809_1_alg».proof.Proof.Gen.Kernel.Frame
import proofs.«124616_j27479200759809_1_alg».proof.Proof.Gen.KernelIdeal
import proofs.«124616_j27479200759809_1_alg».proof.Proof.Gen.KernelIdeal.Skeleton
import proofs.«124616_j27479200759809_1_alg».proof.Proof.Gen.KernelIdeal.Launch
import proofs.«124616_j27479200759809_1_alg».proof.Proof.Gen.KernelIdeal.Points
import proofs.«124616_j27479200759809_1_alg».proof.Proof.Gen.KernelIdeal.Frame
import proofs.«124616_j27479200759809_1_alg».proof.Proof.Gen.ReferenceIdeal
import proofs.«124616_j27479200759809_1_alg».proof.Proof.Gen.Pre_finite_inputs
import proofs.«124616_j27479200759809_1_alg».proof.Proof.Gen.ReferenceIdeal.Run
import proofs.«124616_j27479200759809_1_alg».proof.Proof.Gen.ReferenceIdeal.Read
import proofs.«124616_j27479200759809_1_alg».proof.Proof.Spec
import proofs.«124616_j27479200759809_1_alg».proof.Proof.Finite
import proofs.«124616_j27479200759809_1_alg».proof.Proof.KernelValue
import proofs.«124616_j27479200759809_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel program terminates with its arguments unchanged. -/
theorem frameKernel : Cert.frame_Kernel := fun m ρ _ => Cert.Kernel.Gen.frame m ρ

/-- So does the idealized kernel program. -/
theorem frameKernelIdeal : Cert.frame_KernelIdeal := fun m ρ _ => Cert.KernelIdeal.Gen.frame m ρ

/-- The reference has no kernel: its run, with the result dropped, is its frame. -/
theorem frameReferenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arrays, all of whose entries are real by the precondition, the kernel program
    returns the expanded expression and the reference the pairwise one: equal numbers. -/
theorem algebraic : Cert.algebraic_KernelIdeal_ReferenceIdeal := by
  intro m ρ m' ρ' hpre hagree
  refine ⟨fun c => fun _ => Cert.Club.Ker.value m c, Cert.Club.Ker.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v26_eq (F := Ideal) _ _ _).trans ?_
  rw [Cert.Club.Ref.result_eq, (hagree c).1, (hagree c).2.1, (hagree c).2.2]
  funext _
  obtain ⟨r0, r1, r2⟩ := Cert.Club.Finite.reals_of_pre _ _ _ (hpre c)
  exact (Cert.Club.eExpanded_eq_ePairwise _ _ _ (fun i d => r0 (ix2 i d)) (fun i d => r1 (ix2 i d))
    (fun i d => r2 (ix2 i d))).symm

theorem claim : Cert.Claim := ⟨Cert.Kernel.Gen.facts, Cert.KernelIdeal.Gen.facts, Cert.ReferenceIdeal.Gen.facts, Cert.Pre_finite_inputs.Gen.facts,
  frameKernel, frameKernelIdeal, frameReferenceIdeal, preserves, algebraic⟩

end Cert.Proof

end
